-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x1024 : Shape := ⟨3, ![64, 1, 1024]⟩
abbrev S64x2048x1024 : Shape := ⟨3, ![64, 2048, 1024]⟩
abbrev S1024x2048 : Shape := ⟨2, ![1024, 2048]⟩
abbrev S1024 : Shape := ⟨1, ![1024]⟩
abbrev S_ : Shape := ⟨0, ![]⟩

class Facts : Prop where
  bcast_S_S64x1x1024 : S_.BroadcastsInDim S64x1x1024 (![] : Fin 0 → Fin S64x1x1024.rank)
  reducesTo_S64x1x1024_S_d0_1_2 : S64x1x1024.ReducesTo [0, 1, 2] S_
  h_S_ : 0 < S_.numel
  bcast_S_S64x2048x1024 : S_.BroadcastsInDim S64x2048x1024 (![] : Fin 0 → Fin S64x2048x1024.rank)
  reducesTo_S64x2048x1024_S_d0_1_2 : S64x2048x1024.ReducesTo [0, 1, 2] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S64x1x1024 .f32) (main_arg1 : FVec F S64x2048x1024 .f32) (main_arg2 : FVec F S1024x2048 .f32) (main_arg3 : FVec F S1024 .f32) : IVec S_ 1 :=
  let main_v0 : FVec F S64x1x1024 .f32 := Host.absf main_arg0
  let main_cst : FVec F S_ .f32 := constant S_ .f32 0x7F800000#32
  let main_v1 : FVec F S64x1x1024 .f32 := broadcastInDim S64x1x1024 ![] bcast_S_S64x1x1024 main_cst
  let main_v2 : IVec S64x1x1024 1 := cmpf .olt main_v0 main_v1
  let main_c : IVec S_ 1 := constantI S_ 1 1#1
  let main_v3 : IVec S_ 1 := (fun x v => Host.reduce IntOp.andi x v reducesTo_S64x1x1024_S_d0_1_2 h_S_) main_v2 main_c
  let main_v4 : FVec F S64x2048x1024 .f32 := Host.absf main_arg1
  let main_cst_0 : FVec F S_ .f32 := constant S_ .f32 0x7F800000#32
  let main_v5 : FVec F S64x2048x1024 .f32 := broadcastInDim S64x2048x1024 ![] bcast_S_S64x2048x1024 main_cst_0
  let main_v6 : IVec S64x2048x1024 1 := cmpf .olt main_v4 main_v5
  let main_c_1 : IVec S_ 1 := constantI S_ 1 1#1
  let main_v7 : IVec S_ 1 := (fun x v => Host.reduce IntOp.andi x v reducesTo_S64x2048x1024_S_d0_1_2 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S64x1x1024 : Shape := ⟨3, ![64, 1, 1024]⟩
abbrev S64x2048x1024 : Shape := ⟨3, ![64, 2048, 1024]⟩
abbrev S1024x2048 : Shape := ⟨2, ![1024, 2048]⟩
abbrev S1024 : Shape := ⟨1, ![1024]⟩
abbrev S64x1x2048 : Shape := ⟨3, ![64, 1, 2048]⟩
abbrev S2x1x1024 : Shape := ⟨3, ![2, 1, 1024]⟩
abbrev S2x2048x1024 : Shape := ⟨3, ![2, 2048, 1024]⟩
abbrev S2x1x2048 : Shape := ⟨3, ![2, 1, 2048]⟩
abbrev S2x1024 : Shape := ⟨2, ![2, 1024]⟩
abbrev S2x2048 : Shape := ⟨2, ![2, 2048]⟩
abbrev S2 : Shape := ⟨1, ![2]⟩
abbrev S2x1 : Shape := ⟨2, ![2, 1]⟩
abbrev S2x2048x1 : Shape := ⟨3, ![2, 2048, 1]⟩
abbrev S64x2048 : Shape := ⟨2, ![64, 2048]⟩
abbrev S64x1024 : Shape := ⟨2, ![64, 1024]⟩
abbrev S1x1024 : Shape := ⟨2, ![1, 1024]⟩

abbrev nBuf : Space → Nat
  | .hbm => 9
  | .vmem => 12
  | .smem => 0
  | _ => 0

abbrev bufTy : (tb : Table) → Fin (tcTables nBuf tb) → BufTy
  | .hbm, ⟨0, _⟩ => ⟨S64x1x1024, .f32⟩
  | .hbm, ⟨1, _⟩ => ⟨S64x2048x1024, .f32⟩
  | .hbm, ⟨2, _⟩ => ⟨S1024x2048, .f32⟩
  | .hbm, ⟨3, _⟩ => ⟨S1024, .f32⟩
  | .hbm, ⟨4, _⟩ => ⟨S64x1x2048, .f32⟩
  | .hbm, ⟨5, _⟩ => ⟨S64x1x2048, .f32⟩
  | .hbm, ⟨6, _⟩ => ⟨S64x2048, .f32⟩
  | .hbm, ⟨7, _⟩ => ⟨S64x1024, .f32⟩
  | .hbm, ⟨8, _⟩ => ⟨S64x1x1024, .f32⟩
  | .local _ .vmem, ⟨0, _⟩ => ⟨S2x1x1024, .f32⟩
  | .local _ .vmem, ⟨1, _⟩ => ⟨S2x1x1024, .f32⟩
  | .local _ .vmem, ⟨2, _⟩ => ⟨S2x2048x1024, .f32⟩
  | .local _ .vmem, ⟨3, _⟩ => ⟨S2x2048x1024, .f32⟩
  | .local _ .vmem, ⟨4, _⟩ => ⟨S2x1x2048, .f32⟩
  | .local _ .vmem, ⟨5, _⟩ => ⟨S2x1x2048, .f32⟩
  | .local _ .vmem, ⟨6, _⟩ => ⟨S2x1x2048, .f32⟩
  | .local _ .vmem, ⟨7, _⟩ => ⟨S2x1x2048, .f32⟩
  | .local _ .vmem, ⟨8, _⟩ => ⟨S64x2048, .f32⟩
  | .local _ .vmem, ⟨9, _⟩ => ⟨S1024x2048, .f32⟩
  | .local _ .vmem, ⟨10, _⟩ => ⟨S1024, .f32⟩
  | .local _ .vmem, ⟨11, _⟩ => ⟨S64x1024, .f32⟩
  | _, _ => ⟨S64x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  inb_S2x1x1024_S2x1x1024_0_0_0 : ∀ a, (![0, 0, 0] : Fin 3 → Nat) a + S2x1x1024.size a ≤ S2x1x1024.size a
  h_S2x1x1024 : 0 < S2x1x1024.numel
  inb_S2x2048x1024_S2x2048x1024_0_0_0 : ∀ a, (![0, 0, 0] : Fin 3 → Nat) a + S2x2048x1024.size a ≤ S2x2048x1024.size a
  h_S2x2048x1024 : 0 < S2x2048x1024.numel
  shapeCasts_S2x1x1024_S2x1024 : S2x1x1024.ShapeCasts S2x1024
  shapeCasts_S2x1024_S2x1x1024 : S2x1024.ShapeCasts S2x1x1024
  broadcasts_S2x1x1024_S2x2048x1024 : S2x1x1024.Broadcasts S2x2048x1024
  reduces_S2x2048x1024_S2x2048 : S2x2048x1024.Reduces [2] S2x2048
  reduces_S2x2048_S2 : S2x2048.Reduces [1] S2
  shapeCasts_S2_S2x1 : S2.ShapeCasts S2x1
  broadcasts_S2x1_S2x2048 : S2x1.Broadcasts S2x2048
  shapeCasts_S2x2048_S2x2048x1 : S2x2048.ShapeCasts S2x2048x1
  broadcasts_S2x2048x1_S2x2048x1024 : S2x2048x1.Broadcasts S2x2048x1024
  reduces_S2x2048x1024_S2x1024 : S2x2048x1024.Reduces [1] S2x1024
  concatenates_S2x1024_S2x1024_S2x2048_d1 : Shape.Concatenates [S2x1024, S2x1024] S2x2048 1
  shapeCasts_S2x2048_S2x1x2048 : S2x2048.ShapeCasts S2x1x2048
  inb_S2x1x2048_S2x1x2048_0_0_0 : ∀ a, (![0, 0, 0] : Fin 3 → Nat) a + S2x1x2048.size a ≤ S2x1x2048.size a
  h_S2x1x2048 : 0 < S2x1x2048.numel
  shapeCasts_S64x1x2048_S64x2048 : S64x1x2048.ShapeCasts S64x2048
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S1024x2048_S1024x2048_0_0 : ∀ a, (![0, 0] : Fin 2 → Nat) a + S1024x2048.size a ≤ S1024x2048.size a
  h_S1024x2048 : 0 < S1024x2048.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S64x1024 : S1x1024.Broadcasts S64x1024
  inb_S64x1024_S64x1024_0_0 : ∀ a, (![0, 0] : Fin 2 → Nat) a + S64x1024.size a ≤ S64x1024.size a
  h_S64x1024 : 0 < S64x1024.numel
  bcast_S64x1024_S64x1x1024_0_2 : S64x1024.BroadcastsInDim S64x1x1024 (![0, 2] : Fin 2 → Fin S64x1x1024.rank)
  dot_S64x2048_S1024x2048_S64x1024_1_1_0_0_n_n_wf : DotDims.WF S64x2048 S1024x2048 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1x1024.size a ≤ S64x1x1024.size a
  hwx0_0 : ∀ i : grid0.Coords, EltTy.bits .f32 = 32 ∨ (Rect.block (s := S64x1x1024) S2x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x2048x1024.size a ≤ S64x2048x1024.size a
  hwx0_1 : ∀ i : grid0.Coords, EltTy.bits .f32 = 32 ∨ (Rect.block (s := S64x2048x1024) S2x2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x2048.size a ≤ S64x1x2048.size a
  hwx0_2 : ∀ i : grid0.Coords, EltTy.bits .f32 = 32 ∨ (Rect.block (s := S64x1x2048) S2x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1x2048.size a ≤ S64x1x2048.size a
  hwx0_3 : ∀ i : grid0.Coords, EltTy.bits .f32 = 32 ∨ (Rect.block (s := S64x1x2048) S2x1x2048.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x2048.size a ≤ S64x2048.size a
  hwx1_0 : ∀ i : grid1.Coords, EltTy.bits .f32 = 32 ∨ (Rect.block (s := S64x2048) S64x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S1024x2048.size a
  hwx1_1 : ∀ i : grid1.Coords, EltTy.bits .f32 = 32 ∨ (Rect.block (s := S1024x2048) S1024x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1024.size a ≤ S64x1024.size a
  hwx1_3 : ∀ i : grid1.Coords, EltTy.bits .f32 = 32 ∨ (Rect.block (s := S64x1024) S64x1024.size (cc1_transform_3 i) (hinb1_3 i)).WholeWords (EltTy.packing .f32)

variable [Facts₀]

def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf

abbrev win0_0 : Pipeline.Window sig grid0 :=
  Pipeline.Window.ofSpec (Memref.whole main_arg0) S2x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S2x1x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S2x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S64x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S64x1024.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x1x1024 : Shape := ⟨3, ![64, 1, 1024]⟩
abbrev S64x2048x1024 : Shape := ⟨3, ![64, 2048, 1024]⟩
abbrev S1024x2048 : Shape := ⟨2, ![1024, 2048]⟩
abbrev S1024 : Shape := ⟨1, ![1024]⟩
abbrev S64x1x2048 : Shape := ⟨3, ![64, 1, 2048]⟩
abbrev S_ : Shape := ⟨0, ![]⟩
abbrev S64x1 : Shape := ⟨2, ![64, 1]⟩
abbrev S64x1x1 : Shape := ⟨3, ![64, 1, 1]⟩
abbrev S1x1x1024 : Shape := ⟨3, ![1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S64x1x1024, .f32⟩
  | .hbm, ⟨1, _⟩ => ⟨S64x2048x1024, .f32⟩
  | .hbm, ⟨2, _⟩ => ⟨S1024x2048, .f32⟩
  | .hbm, ⟨3, _⟩ => ⟨S1024, .f32⟩
  | .hbm, ⟨4, _⟩ => ⟨S64x1x2048, .f32⟩
  | .hbm, ⟨5, _⟩ => ⟨S_, .f32⟩
  | .hbm, ⟨6, _⟩ => ⟨S64x1, .f32⟩
  | .hbm, ⟨7, _⟩ => ⟨S_, .f32⟩
  | .hbm, ⟨8, _⟩ => ⟨S64x1, .f32⟩
  | .hbm, ⟨9, _⟩ => ⟨S64x1, .f32⟩
  | .hbm, ⟨10, _⟩ => ⟨S64x1x1, .f32⟩
  | .hbm, ⟨11, _⟩ => ⟨S64x1x2048, .f32⟩
  | .hbm, ⟨12, _⟩ => ⟨S64x1x2048, .f32⟩
  | .hbm, ⟨13, _⟩ => ⟨S64x1x2048, .f32⟩
  | .hbm, ⟨14, _⟩ => ⟨S_, .f32⟩
  | .hbm, ⟨15, _⟩ => ⟨S64x1, .f32⟩
  | .hbm, ⟨16, _⟩ => ⟨S64x1x1, .f32⟩
  | .hbm, ⟨17, _⟩ => ⟨S64x1x2048, .f32⟩
  | .hbm, ⟨18, _⟩ => ⟨S64x1x2048, .f32⟩
  | .hbm, ⟨19, _⟩ => ⟨S64x1x1024, .f32⟩
  | .hbm, ⟨20, _⟩ => ⟨S64x1x2048, .f32⟩
  | .hbm, ⟨21, _⟩ => ⟨S64x1x1024, .f32⟩
  | .hbm, ⟨22, _⟩ => ⟨S1x1x1024, .f32⟩
  | .hbm, ⟨23, _⟩ => ⟨S64x1x1024, .f32⟩
  | .hbm, ⟨24, _⟩ => ⟨S64x1x1024, .f32⟩
  | .hbm, ⟨25, _⟩ => ⟨S64x1x1024, .f32⟩
  | _, _ => ⟨S64x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S64x1x2048_S64x1_d2 : S64x1x2048.ReducesTo [2] S64x1
  h_S_ : 0 < S_.numel
  bcast_S_S64x1 : S_.BroadcastsInDim S64x1 (![] : Fin 0 → Fin S64x1.rank)
  bcast_S64x1_S64x1x1_0_1 : S64x1.BroadcastsInDim S64x1x1 (![0, 1] : Fin 2 → Fin S64x1x1.rank)
  bcast_S64x1x1_S64x1x2048_0_1_2 : S64x1x1.BroadcastsInDim S64x1x2048 (![0, 1, 2] : Fin 3 → Fin S64x1x2048.rank)
  concatenates_S64x1x1024_S64x1x1024_S64x1x2048_d2 : Shape.Concatenates [S64x1x1024, S64x1x1024] S64x1x2048 2
  bcast_S1024_S1x1x1024_2 : S1024.BroadcastsInDim S1x1x1024 (![2] : Fin 1 → Fin S1x1x1024.rank)
  bcast_S1x1x1024_S64x1x1024_0_1_2 : S1x1x1024.BroadcastsInDim S64x1x1024 (![0, 1, 2] : Fin 3 → Fin S64x1x1024.rank)
  dot_S64x1x1024_S64x2048x1024_S64x1x2048_2_2_1_1_0_0_wf : DotDims.WF S64x1x1024 S64x2048x1024 S64x1x2048 [2] [2] [1] [1] [0] [0]
  dot_S64x1x2048_S64x2048x1024_S64x1x1024_2_1_1_2_0_0_wf : DotDims.WF S64x1x2048 S64x2048x1024 S64x1x1024 [2] [1] [1] [2] [0] [0]
  dot_S64x1x2048_S1024x2048_S64x1x1024_2_1_01_0_n_n_wf : DotDims.WF S64x1x2048 S1024x2048 S64x1x1024 [2] [1] [0, 1] [0] [] []

variable [Facts₀]

def dot_S64x1x1024_S64x2048x1024_S64x1x2048_2_2_1_1_0_0 : DotDims S64x1x1024 S64x2048x1024 S64x1x2048 where
  lhsContracting := [2]
  rhsContracting := [2]
  lhsNonContracting := [1]
  rhsNonContracting := [1]
  lhsBatch := [0]
  rhsBatch := [0]
  wf := dot_S64x1x1024_S64x2048x1024_S64x1x2048_2_2_1_1_0_0_wf
def dot_S64x1x2048_S64x2048x1024_S64x1x1024_2_1_1_2_0_0 : DotDims S64x1x2048 S64x2048x1024 S64x1x1024 where
  lhsContracting := [2]
  rhsContracting := [1]
  lhsNonContracting := [1]
  rhsNonContracting := [2]
  lhsBatch := [0]
  rhsBatch := [0]
  wf := dot_S64x1x2048_S64x2048x1024_S64x1x1024_2_1_1_2_0_0_wf
def dot_S64x1x2048_S1024x2048_S64x1x1024_2_1_01_0_n_n : DotDims S64x1x2048 S1024x2048 S64x1x1024 where
  lhsContracting := [2]
  rhsContracting := [1]
  lhsNonContracting := [0, 1]
  rhsNonContracting := [0]
  lhsBatch := []
  rhsBatch := []
  wf := dot_S64x1x2048_S1024x2048_S64x1x1024_2_1_01_0_n_n_wf

class Facts : Prop extends Facts₀ where

variable [Facts]
-- ==== Proof.Spec.lean ====
/-
  One attention row, as plain mathematics on the extended reals.

  For one batch entry the data are a query row `qr : Fin 1024 → EReal` and a context matrix
  `cr : Fin 2048 → Fin 1024 → EReal`.  The score of position `n` is the inner product of the query with
  context row `n`; the weights are the softmax of the scores, written with the row maximum subtracted
  before the exponential (so the maximum is a fold of `max` from `⊥`, the exponentials are summed, and each
  exponential is divided by that sum); the mixed row is the weighted sum of the context rows; the combined
  row is the mixed row followed by the query row; the output row is `tanh` of the combined row against a
  weight matrix plus a bias.  Everything downstream states both programs' results as these functions of the
  argument arrays, batch entry by batch entry.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-! ## One row -/

/-- The score of position `n`: the inner product of context row `n` with the query row. -/
def scoreRow (qr : Fin 1024 → EReal) (cr : Fin 2048 → Fin 1024 → EReal) (n : Fin 2048) : EReal :=
  ∑ d : Fin 1024, cr n d * qr d

/-- The largest score of the row, as a fold of `max` from `⊥`. -/
def maxRow (qr : Fin 1024 → EReal) (cr : Fin 2048 → Fin 1024 → EReal) : EReal :=
  (Finset.univ : Finset (Fin 2048)).fold max ⊥ (scoreRow qr cr)

/-- The exponential of a score less the row's largest. -/
def expRow (qr : Fin 1024 → EReal) (cr : Fin 2048 → Fin 1024 → EReal) (n : Fin 2048) : EReal :=
  Ideal.exp (scoreRow qr cr n - maxRow qr cr)

/-- The sum of the row's exponentials. -/
def denRow (qr : Fin 1024 → EReal) (cr : Fin 2048 → Fin 1024 → EReal) : EReal :=
  ∑ n : Fin 2048, expRow qr cr n

/-- The attention weight of position `n`: its exponential over the row's sum. -/
def attnRow (qr : Fin 1024 → EReal) (cr : Fin 2048 → Fin 1024 → EReal) (n : Fin 2048) : EReal :=
  Ideal.div (expRow qr cr n) (denRow qr cr)

/-- The mixed row: the context rows weighted by the attention weights. -/
def mixRow (qr : Fin 1024 → EReal) (cr : Fin 2048 → Fin 1024 → EReal) (d : Fin 1024) : EReal :=
  ∑ n : Fin 2048, attnRow qr cr n * cr n d

/-- The combined row: the mixed row, then the query row. -/
def combRow (qr : Fin 1024 → EReal) (cr : Fin 2048 → Fin 1024 → EReal) (e : Fin 2048) : EReal :=
  if h : e.val < 1024 then mixRow qr cr ⟨e.val, h⟩ else qr ⟨e.val - 1024, by have := e.isLt; omega⟩

/-- The output row: `tanh` of the combined row against the weights, plus the bias. -/
def outRow (qr : Fin 1024 → EReal) (cr : Fin 2048 → Fin 1024 → EReal) (W : Fin 1024 → Fin 2048 → EReal)
    (bias : Fin 1024 → EReal) (d : Fin 1024) : EReal :=
  Ideal.tanh ((∑ e : Fin 2048, combRow qr cr e * W d e) + bias d)

theorem combRow_lt (qr : Fin 1024 → EReal) (cr : Fin 2048 → Fin 1024 → EReal) (e : Fin 2048) (h : e.val < 1024) :
    combRow qr cr e = mixRow qr cr ⟨e.val, h⟩ := by
  unfold combRow; rw [dif_pos h]

theorem combRow_ge (qr : Fin 1024 → EReal) (cr : Fin 2048 → Fin 1024 → EReal) (e : Fin 2048) (h : 1024 ≤ e.val) :
    combRow qr cr e = qr ⟨e.val - 1024, by have := e.isLt; omega⟩ := by
  unfold combRow; rw [dif_neg (by omega)]

/-! ## The rows of the argument arrays, for any number `B` of batch entries -/

/-- Batch entry `b`'s query row. -/
def qRow {B : Nat} (q : (⟨3, ![B, 1, 1024]⟩ : Shape).Idx → EReal) (b : Fin B) : Fin 1024 → EReal :=
  fun d => q (ix3 b 0 d)

/-- Batch entry `b`'s context matrix. -/
def cRow {B : Nat} (ctx : (⟨3, ![B, 2048, 1024]⟩ : Shape).Idx → EReal) (b : Fin B) : Fin 2048 → Fin 1024 → EReal :=
  fun n d => ctx (ix3 b n d)

/-- The weight matrix by coordinates. -/
def wMat (W : (⟨2, ![1024, 2048]⟩ : Shape).Idx → EReal) : Fin 1024 → Fin 2048 → EReal := fun d e => W (ix2 d e)

/-- The bias by coordinate. -/
def bVec (bias : (⟨1, ![1024]⟩ : Shape).Idx → EReal) : Fin 1024 → EReal := fun d => bias (ix1 d)

/-! ## The result arrays -/

/-- The attention weights as an array `[B, 1, 2048]`. -/
def attnArr {B : Nat} (q : (⟨3, ![B, 1, 1024]⟩ : Shape).Idx → EReal) (ctx : (⟨3, ![B, 2048, 1024]⟩ : Shape).Idx → EReal) :
    (⟨3, ![B, 1, 2048]⟩ : Shape).Idx → EReal :=
  fun i => attnRow (qRow q ⟨(i 0).val, (i 0).isLt⟩) (cRow ctx ⟨(i 0).val, (i 0).isLt⟩) ⟨(i 2).val, (i 2).isLt⟩

/-- The combined rows as an array `[B, 1, 2048]`. -/
def combArr {B : Nat} (q : (⟨3, ![B, 1, 1024]⟩ : Shape).Idx → EReal) (ctx : (⟨3, ![B, 2048, 1024]⟩ : Shape).Idx → EReal) :
    (⟨3, ![B, 1, 2048]⟩ : Shape).Idx → EReal :=
  fun i => combRow (qRow q ⟨(i 0).val, (i 0).isLt⟩) (cRow ctx ⟨(i 0).val, (i 0).isLt⟩) ⟨(i 2).val, (i 2).isLt⟩

/-- The output rows as an array `[64, 1, 1024]`. -/
def outArr (q : (⟨3, ![64, 1, 1024]⟩ : Shape).Idx → EReal) (ctx : (⟨3, ![64, 2048, 1024]⟩ : Shape).Idx → EReal)
    (W : (⟨2, ![1024, 2048]⟩ : Shape).Idx → EReal) (bias : (⟨1, ![1024]⟩ : Shape).Idx → EReal) :
    (⟨3, ![64, 1, 1024]⟩ : Shape).Idx → EReal :=
  fun i => outRow (qRow q ⟨(i 0).val, (i 0).isLt⟩) (cRow ctx ⟨(i 0).val, (i 0).isLt⟩) (wMat W) (bVec bias) ⟨(i 2).val, (i 2).isLt⟩

theorem attnArr_ix3 {B : Nat} (q : (⟨3, ![B, 1, 1024]⟩ : Shape).Idx → EReal) (ctx : (⟨3, ![B, 2048, 1024]⟩ : Shape).Idx → EReal)
    (b : Fin B) (z : Fin 1) (n : Fin 2048) : attnArr q ctx (ix3 b z n) = attnRow (qRow q b) (cRow ctx b) n := rfl

theorem combArr_ix3 {B : Nat} (q : (⟨3, ![B, 1, 1024]⟩ : Shape).Idx → EReal) (ctx : (⟨3, ![B, 2048, 1024]⟩ : Shape).Idx → EReal)
    (b : Fin B) (z : Fin 1) (e : Fin 2048) : combArr q ctx (ix3 b z e) = combRow (qRow q b) (cRow ctx b) e := rfl

theorem outArr_ix3 (q : (⟨3, ![64, 1, 1024]⟩ : Shape).Idx → EReal) (ctx : (⟨3, ![64, 2048, 1024]⟩ : Shape).Idx → EReal)
    (W : (⟨2, ![1024, 2048]⟩ : Shape).Idx → EReal) (bias : (⟨1, ![1024]⟩ : Shape).Idx → EReal)
    (b : Fin 64) (z : Fin 1) (d : Fin 1024) :
    outArr q ctx W bias (ix3 b z d) = outRow (qRow q b) (cRow ctx b) (wMat W) (bVec bias) d := rfl

/-! ## Two constants -/

/-- The word of negative infinity denotes `⊥`. -/
theorem negInf_eq : Ideal.ofBits .f32 0xFF800000#32 = ⊥ := by simp [Ideal.ofBits, Ideal.ieee]

/-- Every index of a shape `[_, 1, _]` has `0` on its middle axis. -/
theorem fin1_eq_zero (z : Fin 1) : z = 0 := Subsingleton.elim _ _

end Cert.Attn

end
-- ==== Proof.RefSpec.lean ====
/-
  The reference, read one operation at a time, is the row mathematics of `Spec.lean`: its first contraction is the
  score (the two factors in the other order), its `reduce` with a maximum body from negative infinity followed by a
  `maximum` against negative infinity is the row's largest score, the exponential, the sum and the quotient are the
  weights, its second contraction is the mixed row, the concatenation is the combined row, and the third contraction plus
  the bias under `tanh` is the output row.
-/
import proofs.«409571_j987842478321_3_alg».proof.Proof.Gen.ReferenceIdeal.Read
import proofs.«409571_j987842478321_3_alg».proof.Proof.Spec

noncomputable section

namespace Cert.ReferenceIdeal.RefSpec

open Cert.ReferenceIdeal Cert.ReferenceIdeal.Gen Cert.ReferenceIdeal.Read Idealize.ShloMosaic Idealize.ShloMosaic.ValueIdx Cert.Attn

variable (x0 : (⟨S64x1x1024, .f32⟩ : BufTy).Contents (Elt Ideal)) (x1 : (⟨S64x2048x1024, .f32⟩ : BufTy).Contents (Elt Ideal))
  (x2 : (⟨S1024x2048, .f32⟩ : BufTy).Contents (Elt Ideal)) (x3 : (⟨S1024, .f32⟩ : BufTy).Contents (Elt Ideal))

/-- The first contraction at `(b, 0, n)` is the score of position `n` in batch entry `b`. -/
theorem score_eq (b : Fin 64) (n : Fin 2048) :
    val_main_v0 (F := Ideal) x0 x1 (ix3 b 0 n) = scoreRow (qRow x0 b) (cRow x1 b) n := by
  rw [val_main_v0_apply]
  unfold scoreRow qRow cRow
  refine Finset.sum_congr rfl fun k _ => ?_
  have e0 : lidx_main_v0 (ix3 b 0 n) k = ix3 b 0 k := by
    funext a; match a with | ⟨0, _⟩ => rfl | ⟨1, _⟩ => rfl | ⟨2, _⟩ => rfl
  have e1 : ridx_main_v0 (ix3 b 0 n) k = ix3 b n k := by
    funext a; match a with | ⟨0, _⟩ => rfl | ⟨1, _⟩ => rfl | ⟨2, _⟩ => rfl
  rw [e0, e1]
  exact mul_comm _ _

/-- The reduced index `(b, 0)` with position `k` put back is `(b, 0, k)`. -/
theorem lift_eq (h : S64x1x2048.Reduces [2] S64x1) (b : Fin 64) (k : Fin (S64x1x2048.size 2)) :
    h.lift (ix2 b (0 : Fin 1)) k = ix3 b (0 : Fin 1) (⟨k.val, k.isLt⟩ : Fin 2048) := by
  funext c; apply Fin.ext
  match c with | ⟨0, _⟩ => rfl | ⟨1, _⟩ => rfl | ⟨2, _⟩ => rfl

/-- The maximum stage at `(b, 0)` is the row's largest score. -/
theorem max_eq (b : Fin 64) :
    val_main_v3 (F := Ideal) x0 x1 (ix2 b 0) = maxRow (qRow x0 b) (cRow x1 b) := by
  rw [val_main_v3_apply, val_main_v2_apply, val_main_cst_0_apply]
  unfold val_main_v1
  have hR : S64x1x2048.Reduces [2] S64x1 := by decide
  have hred := Host.reduce_eq_fold_single (α := Ideal .f32) (FloatOps.maximumf (F := Ideal) (φ := .f32)) (val_main_v0 (F := Ideal) x0 x1)
    (val_main_cst (F := Ideal)) reducesTo_S64x1x2048_S64x1_d2 hR h_S_ (ix2 b (0 : Fin 1))
  rw [hred]
  have hf : (val_main_v0 (F := Ideal) x0 x1 ∘ (Shape.Reduces.lift hR (ix2 b (0 : Fin 1))))
      = scoreRow (qRow x0 b) (cRow x1 b) := funext fun k => by
    show val_main_v0 (F := Ideal) x0 x1 (Shape.Reduces.lift _ (ix2 b (0 : Fin 1)) k) = _
    rw [lift_eq]; exact score_eq x0 x1 b _
  rw [hf]
  show max (Ideal.ofBits .f32 0xFF800000#32) (Finset.fold max (Ideal.ofBits .f32 0xFF800000#32) (scoreRow (qRow x0 b) (cRow x1 b)) Finset.univ) = _
  rw [negInf_eq, max_eq_right bot_le]
  rfl

/-- The exponential stage at `(b, 0, n)`. -/
theorem exp_eq (b : Fin 64) (n : Fin 2048) :
    val_main_v7 (F := Ideal) x0 x1 (ix3 b 0 n) = expRow (qRow x0 b) (cRow x1 b) n := by
  rw [val_main_v7_apply, val_main_v6_apply, val_main_v5_apply, val_main_v4_apply]
  have e : idx_main_v4 (idx_main_v5 (ix3 b (0 : Fin 1) n)) = ix2 b (0 : Fin 1) := by
    funext a; match a with | ⟨0, _⟩ => rfl | ⟨1, _⟩ => rfl
  rw [e, max_eq, score_eq]
  rfl

/-- The sum stage at `(b, 0)`. -/
theorem den_eq (b : Fin 64) :
    val_main_v8 (F := Ideal) x0 x1 (ix2 b 0) = denRow (qRow x0 b) (cRow x1 b) := by
  rw [val_main_v8_apply, val_main_cst_1_apply]
  show Ideal.ofBits .f32 0x00000000#32 + _ = _
  rw [Ideal.ofBits_zero_f32, zero_add]
  unfold denRow
  refine Finset.sum_congr rfl fun k _ => ?_
  have e : idx_main_v8 (ix2 b (0 : Fin 1)) k = ix3 b (0 : Fin 1) k := by
    funext a; match a with | ⟨0, _⟩ => rfl | ⟨1, _⟩ => rfl | ⟨2, _⟩ => rfl
  rw [e]; exact exp_eq x0 x1 b k

/-- The quotient stage at `(b, 0, n)` is the attention weight. -/
theorem attn_eq (b : Fin 64) (n : Fin 2048) :
    val_main_v11 (F := Ideal) x0 x1 (ix3 b 0 n) = attnRow (qRow x0 b) (cRow x1 b) n := by
  rw [val_main_v11_apply, val_main_v10_apply, val_main_v9_apply]
  have e : idx_main_v9 (idx_main_v10 (ix3 b (0 : Fin 1) n)) = ix2 b (0 : Fin 1) := by
    funext a; match a with | ⟨0, _⟩ => rfl | ⟨1, _⟩ => rfl
  rw [e, den_eq, exp_eq]
  rfl

/-- The reference's second result is the array of attention weights. -/
theorem attn_arr : val_main_v11 (F := Ideal) x0 x1 = attnArr x0 x1 := by
  funext i
  obtain ⟨b, z, n, rfl⟩ : ∃ (b : Fin 64) (z : Fin 1) (n : Fin 2048), i = ix3 b z n := ⟨i 0, i 1, i 2, eq_ix3 i⟩
  obtain rfl := fin1_eq_zero z
  rw [attnArr_ix3]; exact attn_eq x0 x1 b n

/-- The second contraction at `(b, 0, d)` is the mixed row. -/
theorem mix_eq (b : Fin 64) (d : Fin 1024) :
    val_main_v12 (F := Ideal) x0 x1 (ix3 b 0 d) = mixRow (qRow x0 b) (cRow x1 b) d := by
  rw [val_main_v12_apply]
  unfold mixRow
  refine Finset.sum_congr rfl fun k _ => ?_
  have e0 : lidx_main_v12 (ix3 b (0 : Fin 1) d) k = ix3 b (0 : Fin 1) k := by
    funext a; match a with | ⟨0, _⟩ => rfl | ⟨1, _⟩ => rfl | ⟨2, _⟩ => rfl
  have e1 : ridx_main_v12 (ix3 b (0 : Fin 1) d) k = ix3 b k d := by
    funext a; match a with | ⟨0, _⟩ => rfl | ⟨1, _⟩ => rfl | ⟨2, _⟩ => rfl
  rw [e0, e1, attn_eq]
  rfl

/-- The concatenation at `(b, 0, e)` is the combined row. -/
theorem comb_eq (b : Fin 64) (e : Fin 2048) :
    val_main_v13 (F := Ideal) x0 x1 (ix3 b 0 e) = combRow (qRow x0 b) (cRow x1 b) e := by
  unfold val_main_v13
  by_cases he : e.val < 1024
  · rw [combRow_lt _ _ _ he]
    rw [concatenate_pair_apply_left (2 : Fin 3) (val_main_v12 (F := Ideal) x0 x1) x0 concatenates_S64x1x1024_S64x1x1024_S64x1x2048_d2
      (ix3 b (0 : Fin 1) e) rfl (ix3 b (0 : Fin 1) (⟨e.val, he⟩ : Fin 1024))
      (fun a => by match a with | ⟨0, _⟩ => rfl | ⟨1, _⟩ => rfl | ⟨2, _⟩ => rfl)]
    exact mix_eq x0 x1 b _
  · have hge : 1024 ≤ e.val := Nat.le_of_not_lt he
    rw [combRow_ge _ _ _ hge]
    rw [concatenate_pair_apply_right (2 : Fin 3) (val_main_v12 (F := Ideal) x0 x1) x0 concatenates_S64x1x1024_S64x1x1024_S64x1x2048_d2
      (ix3 b (0 : Fin 1) e) rfl rfl (ix3 b (0 : Fin 1) (⟨e.val - 1024, by have := e.isLt; omega⟩ : Fin 1024))
      (fun a ha => by
        match a with
        | ⟨0, _⟩ => rfl
        | ⟨1, _⟩ => rfl
        | ⟨2, _⟩ => exact absurd rfl ha)
      (by show e.val - 1024 + 1024 = e.val; omega)]
    rfl

/-- The reference's first result is the array of output rows. -/
theorem out_arr : val_main_v18 (F := Ideal) x0 x1 x2 x3 = outArr x0 x1 x2 x3 := by
  funext i
  obtain ⟨b, z, d, rfl⟩ : ∃ (b : Fin 64) (z : Fin 1) (d : Fin 1024), i = ix3 b z d := ⟨i 0, i 1, i 2, eq_ix3 i⟩
  obtain rfl := fin1_eq_zero z
  rw [outArr_ix3, val_main_v18_apply, val_main_v17_apply, val_main_v16_apply, val_main_v15_apply, val_main_v14_apply]
  unfold outRow
  have es : (∑ k : Fin 2048, val_main_v13 (F := Ideal) x0 x1 (lidx_main_v14 (ix3 b (0 : Fin 1) d) k) * x2 (ridx_main_v14 (ix3 b (0 : Fin 1) d) k))
      = ∑ e : Fin 2048, combRow (qRow x0 b) (cRow x1 b) e * wMat x2 d e := by
    refine Finset.sum_congr rfl fun k _ => ?_
    have e0 : lidx_main_v14 (ix3 b (0 : Fin 1) d) k = ix3 b (0 : Fin 1) k := by
      funext a; match a with | ⟨0, _⟩ => rfl | ⟨1, _⟩ => rfl | ⟨2, _⟩ => rfl
    have e1 : ridx_main_v14 (ix3 b (0 : Fin 1) d) k = ix2 d k := by
      funext a; match a with | ⟨0, _⟩ => rfl | ⟨1, _⟩ => rfl
    rw [e0, e1, comb_eq]
    rfl
  rw [es]
  have eb : idx_main_v15 (idx_main_v16 (ix3 b (0 : Fin 1) d)) = ix1 d := by
    funext a; match a with | ⟨0, _⟩ => rfl
  rw [eb]
  rfl

end Cert.ReferenceIdeal.RefSpec

end
-- ==== Proof.Pay0.lean ====
/-
  The first kernel's two stored values, at an index.  A block holds two batch entries.  For entry `p` of the block the
  body multiplies every context row by the query row and sums along the row (the scores), takes the row maximum of the
  scores, subtracts it, exponentiates, sums the exponentials, and divides: the attention weights.  It then weights the
  context rows by them and sums over the positions (the mixed row), and joins the mixed row and the query row.  The first
  store is the weights as `[2, 1, 2048]`, the second the joined rows as `[2, 1, 2048]`: the arrays `attnArr` and
  `combArr` of `Spec.lean` at two batch entries.
-/
import proofs.«409571_j987842478321_3_alg».proof.Proof.Gen.KernelIdeal.Skeleton
import proofs.«409571_j987842478321_3_alg».proof.Proof.Spec
import Idealize.ShloMosaic.Lib.Pipeline.Value
import Idealize.ShloMosaic.Lib.ValueLayout
import Idealize.ShloMosaic.PureOps.Ideal.Laws

noncomputable section

namespace Cert.KernelIdeal.AttnBlock

open Cert.KernelIdeal Cert.KernelIdeal.Gen Idealize.ShloMosaic Idealize.ShloMosaic.ValueIdx Cert.Attn

/-! ## Layout operations of the body, read at an index -/

/-- The query block `[2, 1, 1024]` broadcast along the positions: at `(p, n, d)` it is the block at `(p, 0, d)`. -/
theorem bcast_query (v : FVec Ideal S2x1x1024 .f32) (p : Fin 2) (n : Fin 2048) (d : Fin 1024) :
    broadcastTo S2x2048x1024 v broadcasts_S2x1x1024_S2x2048x1024 (ix3 p n d) = v (ix3 p (0 : Fin 1) d) :=
  broadcastTo_apply v _ (ix3 p n d) (ix3 p (0 : Fin 1) d) fun a => by
    match a with
    | ⟨0, _⟩ => show p.val = if (2 : Nat) = 1 then 0 else p.val; rw [if_neg (by decide)]
    | ⟨1, _⟩ => show 0 = if (1 : Nat) = 1 then 0 else n.val; rw [if_pos rfl]
    | ⟨2, _⟩ => show d.val = if (1024 : Nat) = 1 then 0 else d.val; rw [if_neg (by decide)]

/-- A column `[2, 2048, 1]` broadcast along the features: at `(p, n, d)` it is the column at `(p, n, 0)`. -/
theorem bcast_weight (v : FVec Ideal S2x2048x1 .f32) (p : Fin 2) (n : Fin 2048) (d : Fin 1024) :
    broadcastTo S2x2048x1024 v broadcasts_S2x2048x1_S2x2048x1024 (ix3 p n d) = v (ix3 p n (0 : Fin 1)) :=
  broadcastTo_apply v _ (ix3 p n d) (ix3 p n (0 : Fin 1)) fun a => by
    match a with
    | ⟨0, _⟩ => show p.val = if (2 : Nat) = 1 then 0 else p.val; rw [if_neg (by decide)]
    | ⟨1, _⟩ => show n.val = if (2048 : Nat) = 1 then 0 else n.val; rw [if_neg (by decide)]
    | ⟨2, _⟩ => show 0 = if (1 : Nat) = 1 then 0 else d.val; rw [if_pos rfl]

/-- A column `[2, 1]` broadcast along the positions: at `(p, n)` it is the column at `(p, 0)`. -/
theorem bcast_col (v : FVec Ideal S2x1 .f32) (p : Fin 2) (n : Fin 2048) :
    broadcastTo S2x2048 v broadcasts_S2x1_S2x2048 (ix2 p n) = v (ix2 p (0 : Fin 1)) :=
  broadcastTo_apply v _ (ix2 p n) (ix2 p (0 : Fin 1)) fun a => by
    match a with
    | ⟨0, _⟩ => show p.val = if (2 : Nat) = 1 then 0 else p.val; rw [if_neg (by decide)]
    | ⟨1, _⟩ => show 0 = if (1 : Nat) = 1 then 0 else n.val; rw [if_pos rfl]

/-- `[2]` cast to `[2, 1]`: at `(p, 0)` it is entry `p`. -/
theorem cast_col (v : FVec Ideal S2 .f32) (p : Fin 2) :
    shapeCast S2x1 v shapeCasts_S2_S2x1 (ix2 p (0 : Fin 1)) = v (ix1 p) :=
  shapeCast_apply v _ _ _ (by
    rw [Shape.rowMajor_val_two, Shape.rowMajor_val_one]
    show p.val = p.val * 1 + 0
    omega)

/-- `[2, 2048]` cast to `[2, 1, 2048]`: at `(p, 0, n)` it is the matrix at `(p, n)`. -/
theorem cast_mid (v : FVec Ideal S2x2048 .f32) (p : Fin 2) (n : Fin 2048) :
    shapeCast S2x1x2048 v shapeCasts_S2x2048_S2x1x2048 (ix3 p (0 : Fin 1) n) = v (ix2 p n) :=
  shapeCast_apply v _ _ _ (by
    rw [Shape.rowMajor_val_two, Shape.rowMajor_val_three]
    show p.val * 2048 + n.val = (p.val * 1 + 0) * 2048 + n.val
    omega)

/-- `[2, 2048]` cast to `[2, 2048, 1]`: at `(p, n, 0)` it is the matrix at `(p, n)`. -/
theorem cast_last (v : FVec Ideal S2x2048 .f32) (p : Fin 2) (n : Fin 2048) :
    shapeCast S2x2048x1 v shapeCasts_S2x2048_S2x2048x1 (ix3 p n (0 : Fin 1)) = v (ix2 p n) :=
  shapeCast_apply v _ _ _ (by
    rw [Shape.rowMajor_val_two, Shape.rowMajor_val_three]
    show p.val * 2048 + n.val = (p.val * 2048 + n.val) * 1 + 0
    omega)

/-- `[2, 1, 1024]` cast to `[2, 1024]`: at `(p, d)` it is the block at `(p, 0, d)`. -/
theorem cast_query (v : FVec Ideal S2x1x1024 .f32) (p : Fin 2) (d : Fin 1024) :
    shapeCast S2x1024 v shapeCasts_S2x1x1024_S2x1024 (ix2 p d) = v (ix3 p (0 : Fin 1) d) :=
  shapeCast_apply v _ _ _ (by
    rw [Shape.rowMajor_val_two, Shape.rowMajor_val_three]
    show (p.val * 1 + 0) * 1024 + d.val = p.val * 1024 + d.val
    omega)

/-! ## The reductions' index maps -/

theorem lift_feature (h : S2x2048x1024.Reduces [2] S2x2048) (p : Fin 2) (n : Fin 2048) (k : Fin (S2x2048x1024.size 2)) :
    h.lift (ix2 p n) k = ix3 p n (⟨k.val, k.isLt⟩ : Fin 1024) := by
  funext c; apply Fin.ext
  match c with | ⟨0, _⟩ => rfl | ⟨1, _⟩ => rfl | ⟨2, _⟩ => rfl

theorem lift_position (h : S2x2048x1024.Reduces [1] S2x1024) (p : Fin 2) (d : Fin 1024) (k : Fin (S2x2048x1024.size 1)) :
    h.lift (ix2 p d) k = ix3 p (⟨k.val, k.isLt⟩ : Fin 2048) d := by
  funext c; apply Fin.ext
  match c with | ⟨0, _⟩ => rfl | ⟨1, _⟩ => rfl | ⟨2, _⟩ => rfl

theorem lift_row (h : S2x2048.Reduces [1] S2) (p : Fin 2) (k : Fin (S2x2048.size 1)) :
    h.lift (ix1 p) k = ix2 p (⟨k.val, k.isLt⟩ : Fin 2048) := by
  funext c; apply Fin.ext
  match c with | ⟨0, _⟩ => rfl | ⟨1, _⟩ => rfl

/-! ## The body's stages as vectors -/

/-- The scores of a block. -/
def scoreV (x0 : Vec Ideal S2x1x1024 .f32) (x1 : Vec Ideal S2x2048x1024 .f32) : FVec Ideal S2x2048 .f32 :=
  multiReduction .add [2] S2x2048
    (mulf x1 (broadcastTo S2x2048x1024 (shapeCast S2x1x1024 (shapeCast S2x1024 x0 shapeCasts_S2x1x1024_S2x1024) shapeCasts_S2x1024_S2x1x1024) broadcasts_S2x1x1024_S2x2048x1024))
    0x00000000#32 reduces_S2x2048x1024_S2x2048 (.inl rfl) rfl

/-- The row maxima, broadcast along the positions. -/
def maxV (s : FVec Ideal S2x2048 .f32) : FVec Ideal S2x2048 .f32 :=
  broadcastTo S2x2048 (shapeCast S2x1 (multiReduction .maximumf [1] S2 s 0xFF800000#32 reduces_S2x2048_S2 (.inl rfl) rfl) shapeCasts_S2_S2x1) broadcasts_S2x1_S2x2048

/-- The exponentials of the scores less their row maxima. -/
def expV (s : FVec Ideal S2x2048 .f32) : FVec Ideal S2x2048 .f32 := exp (subf s (maxV s))

/-- The row sums, broadcast along the positions. -/
def sumV (e : FVec Ideal S2x2048 .f32) : FVec Ideal S2x2048 .f32 :=
  broadcastTo S2x2048 (shapeCast S2x1 (multiReduction .add [1] S2 e 0x00000000#32 reduces_S2x2048_S2 (.inl rfl) rfl) shapeCasts_S2_S2x1) broadcasts_S2x1_S2x2048

/-- The weights' payload is the quotient of the exponentials by their row sums. -/
theorem pay2_eq (x0 : Vec Ideal S2x1x1024 .f32) (x1 : Vec Ideal S2x2048x1024 .f32) :
    k0_pay2 (F := Ideal) x0 x1 = divf (expV (scoreV x0 x1)) (sumV (expV (scoreV x0 x1))) := rfl

theorem scoreV_at (x0 : Vec Ideal S2x1x1024 .f32) (x1 : Vec Ideal S2x2048x1024 .f32) (p : Fin 2) (n : Fin 2048) :
    scoreV x0 x1 (ix2 p n) = scoreRow (qRow (B := 2) x0 p) (cRow (B := 2) x1 p) n := by
  unfold scoreV
  rw [shapeCast_shapeCast]
  refine (Ideal.multiReduction_add_single _ 0x00000000#32 reduces_S2x2048x1024_S2x2048 (.inl rfl) rfl (ix2 p n)).trans ?_
  unfold scoreRow qRow cRow
  refine Finset.sum_congr rfl fun k _ => ?_
  rw [lift_feature, mulf_apply, bcast_query]
  rfl

theorem maxV_at (s : FVec Ideal S2x2048 .f32) (p : Fin 2) (n : Fin 2048) :
    maxV s (ix2 p n) = (Finset.univ : Finset (Fin 2048)).fold max ⊥ (fun k => s (ix2 p k)) := by
  unfold maxV
  rw [bcast_col, cast_col]
  refine (Ideal.multiReduction_maximumf_single s 0xFF800000#32 reduces_S2x2048_S2 (.inl rfl) rfl (ix1 p)).trans ?_
  have hf : (s ∘ (Shape.Reduces.lift reduces_S2x2048_S2 (ix1 p))) = fun k : Fin 2048 => s (ix2 p k) :=
    funext fun k => congrArg s (lift_row reduces_S2x2048_S2 p k)
  rw [hf]
  show Finset.fold max (Ideal.ofBits .f32 0xFF800000#32) _ _ = _
  rw [negInf_eq]
  rfl

theorem sumV_at (e : FVec Ideal S2x2048 .f32) (p : Fin 2) (n : Fin 2048) :
    sumV e (ix2 p n) = ∑ k : Fin 2048, e (ix2 p k) := by
  unfold sumV
  rw [bcast_col, cast_col]
  refine (Ideal.multiReduction_add_single e 0x00000000#32 reduces_S2x2048_S2 (.inl rfl) rfl (ix1 p)).trans ?_
  refine Finset.sum_congr rfl fun k _ => ?_
  rw [lift_row]
  rfl

theorem expV_at (x0 : Vec Ideal S2x1x1024 .f32) (x1 : Vec Ideal S2x2048x1024 .f32) (p : Fin 2) (n : Fin 2048) :
    expV (scoreV x0 x1) (ix2 p n) = expRow (qRow (B := 2) x0 p) (cRow (B := 2) x1 p) n := by
  unfold expV expRow maxRow
  show Ideal.exp (scoreV x0 x1 (ix2 p n) - maxV (scoreV x0 x1) (ix2 p n)) = _
  rw [maxV_at, scoreV_at]
  have hf : (fun k : Fin 2048 => scoreV x0 x1 (ix2 p k)) = scoreRow (qRow (B := 2) x0 p) (cRow (B := 2) x1 p) :=
    funext fun k => scoreV_at x0 x1 p k
  rw [hf]

/-- The weights' payload at `(p, n)`. -/
theorem pay2_at (x0 : Vec Ideal S2x1x1024 .f32) (x1 : Vec Ideal S2x2048x1024 .f32) (p : Fin 2) (n : Fin 2048) :
    k0_pay2 (F := Ideal) x0 x1 (ix2 p n) = attnRow (qRow (B := 2) x0 p) (cRow (B := 2) x1 p) n := by
  rw [pay2_eq]
  show Ideal.div (expV (scoreV x0 x1) (ix2 p n)) (sumV (expV (scoreV x0 x1)) (ix2 p n)) = _
  rw [sumV_at, expV_at]
  unfold attnRow denRow
  have hf : (fun k : Fin 2048 => expV (scoreV x0 x1) (ix2 p k)) = expRow (qRow (B := 2) x0 p) (cRow (B := 2) x1 p) :=
    funext fun k => expV_at x0 x1 p k
  rw [hf]

/-- THE FIRST STORE: the weights of the block's two batch entries. -/
theorem pay3_eq (x0 : Vec Ideal S2x1x1024 .f32) (x1 : Vec Ideal S2x2048x1024 .f32) :
    k0_pay3 (F := Ideal) x0 x1 = attnArr (B := 2) x0 x1 := by
  funext i
  obtain ⟨p, z, n, rfl⟩ : ∃ (p : Fin 2) (z : Fin 1) (n : Fin 2048), i = ix3 p z n := ⟨i 0, i 1, i 2, eq_ix3 i⟩
  obtain rfl := fin1_eq_zero z
  rw [attnArr_ix3]
  unfold k0_pay3
  show shapeCast S2x1x2048 (k0_pay2 (F := Ideal) x0 x1) shapeCasts_S2x2048_S2x1x2048 (ix3 p (0 : Fin 1) n) = _
  rw [cast_mid, pay2_at]

/-! ## The second store -/

/-- The mixed rows of a block. -/
def mixV (a : FVec Ideal S2x2048 .f32) (x1 : Vec Ideal S2x2048x1024 .f32) : FVec Ideal S2x1024 .f32 :=
  multiReduction .add [1] S2x1024
    (mulf (broadcastTo S2x2048x1024 (shapeCast S2x2048x1 a shapeCasts_S2x2048_S2x2048x1) broadcasts_S2x2048x1_S2x2048x1024) x1)
    0x00000000#32 reduces_S2x2048x1024_S2x1024 (.inl rfl) rfl

theorem pay4_eq' (x0 : Vec Ideal S2x1x1024 .f32) (x1 : Vec Ideal S2x2048x1024 .f32) :
    k0_pay4 (F := Ideal) x0 x1 = shapeCast S2x1x2048
      (concatenate S2x2048 1 [⟨S2x1024, mixV (k0_pay2 (F := Ideal) x0 x1) x1⟩, ⟨S2x1024, shapeCast S2x1024 x0 shapeCasts_S2x1x1024_S2x1024⟩] concatenates_S2x1024_S2x1024_S2x2048_d1)
      shapeCasts_S2x2048_S2x1x2048 := rfl

theorem mixV_at (x0 : Vec Ideal S2x1x1024 .f32) (x1 : Vec Ideal S2x2048x1024 .f32) (p : Fin 2) (d : Fin 1024) :
    mixV (k0_pay2 (F := Ideal) x0 x1) x1 (ix2 p d) = mixRow (qRow (B := 2) x0 p) (cRow (B := 2) x1 p) d := by
  unfold mixV
  refine (Ideal.multiReduction_add_single _ 0x00000000#32 reduces_S2x2048x1024_S2x1024 (.inl rfl) rfl (ix2 p d)).trans ?_
  unfold mixRow
  refine Finset.sum_congr rfl fun k _ => ?_
  rw [lift_position, mulf_apply, bcast_weight, cast_last, pay2_at]
  rfl

/-- THE SECOND STORE: the mixed rows joined with the query rows, for the block's two batch entries. -/
theorem pay4_eq (x0 : Vec Ideal S2x1x1024 .f32) (x1 : Vec Ideal S2x2048x1024 .f32) :
    k0_pay4 (F := Ideal) x0 x1 = combArr (B := 2) x0 x1 := by
  funext i
  obtain ⟨p, z, e, rfl⟩ : ∃ (p : Fin 2) (z : Fin 1) (e : Fin 2048), i = ix3 p z e := ⟨i 0, i 1, i 2, eq_ix3 i⟩
  obtain rfl := fin1_eq_zero z
  rw [combArr_ix3, pay4_eq', cast_mid]
  by_cases he : e.val < 1024
  · rw [combRow_lt _ _ _ he]
    rw [concatenate_pair_apply_left (1 : Fin 2) (mixV (k0_pay2 (F := Ideal) x0 x1) x1) (shapeCast S2x1024 x0 shapeCasts_S2x1x1024_S2x1024)
      concatenates_S2x1024_S2x1024_S2x2048_d1 (ix2 p e) rfl (ix2 p (⟨e.val, he⟩ : Fin 1024))
      (fun a => by match a with | ⟨0, _⟩ => rfl | ⟨1, _⟩ => rfl)]
    exact mixV_at x0 x1 p _
  · have hge : 1024 ≤ e.val := Nat.le_of_not_lt he
    rw [combRow_ge _ _ _ hge]
    rw [concatenate_pair_apply_right (1 : Fin 2) (mixV (k0_pay2 (F := Ideal) x0 x1) x1) (shapeCast S2x1024 x0 shapeCasts_S2x1x1024_S2x1024)
      concatenates_S2x1024_S2x1024_S2x2048_d1 (ix2 p e) rfl rfl (ix2 p (⟨e.val - 1024, by have := e.isLt; omega⟩ : Fin 1024))
      (fun a ha => by
        match a with
        | ⟨0, _⟩ => rfl
        | ⟨1, _⟩ => exact absurd rfl ha)
      (by show e.val - 1024 + 1024 = e.val; omega)]
    rw [cast_query]
    rfl

end Cert.KernelIdeal.AttnBlock

end
-- ==== Proof.Region0.lean ====
/-
  The first kernel's two result arrays.  The grid has 32 points; point `t` works on batch entries `2t` and `2t + 1`: its
  query block is rows `2t, 2t + 1` of the query array, its context block the same two entries of the context array, and
  the two blocks it writes back are entries `2t, 2t + 1` of the weights and of the joined rows.  A row of either result
  depends on its own batch entry only, so the block a point writes is the block of the whole-array function; the 32
  blocks tile the arrays, hence each array ends holding that function: `attnArr` and `combArr` of the two arguments.
-/
import proofs.«409571_j987842478321_3_alg».proof.Proof.Gen.KernelIdeal.Frame
import proofs.«409571_j987842478321_3_alg».proof.Proof.Pay0
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Cert.Attn
open Idealize.ShloMosaic.Pipeline (Dat)

/-! ## Rows of a block are rows of the array -/

/-- Any function of one batch entry's query row and context matrix takes the same value on entry `p` of a block as on entry
    `b = 2T + p` of the arrays, when the block holds entries `2T, 2T + 1`. -/
theorem rows_of_block (f : (Fin 1024 → EReal) → (Fin 2048 → Fin 1024 → EReal) → Fin 2048 → EReal)
    (q : (⟨3, ![64, 1, 1024]⟩ : Shape).Idx → EReal) (ctx : (⟨3, ![64, 2048, 1024]⟩ : Shape).Idx → EReal)
    (xq : (⟨3, ![2, 1, 1024]⟩ : Shape).Idx → EReal) (xc : (⟨3, ![2, 2048, 1024]⟩ : Shape).Idx → EReal) (T : Nat) (hT : T < 32)
    (hq : ∀ (p : Fin 2) (d : Fin 1024), xq (ix3 p (0 : Fin 1) d) = q (ix3 (⟨T * 2 + p.val, by have := p.isLt; omega⟩ : Fin 64) (0 : Fin 1) d))
    (hc : ∀ (p : Fin 2) (n : Fin 2048) (d : Fin 1024), xc (ix3 p n d) = ctx (ix3 (⟨T * 2 + p.val, by have := p.isLt; omega⟩ : Fin 64) n d))
    (p : Fin 2) (b : Fin 64) (hb : b.val = T * 2 + p.val) (n : Fin 2048) :
    f (qRow (B := 2) xq p) (cRow (B := 2) xc p) n = f (qRow (B := 64) q b) (cRow (B := 64) ctx b) n := by
  have e : (⟨T * 2 + p.val, by have := p.isLt; omega⟩ : Fin 64) = b := Fin.ext hb.symm
  have eq : qRow (B := 2) xq p = qRow (B := 64) q b := funext fun d => by unfold qRow; rw [hq, e]
  have ec : cRow (B := 2) xc p = cRow (B := 64) ctx b := funext fun n => funext fun d => by unfold cRow; rw [hc, e]
  rw [eq, ec]

/-! ## The grid -/

theorem hz3 : (![0, 0, 0] : Fin 3 → Nat) = fun _ => 0 := funext fun a => by fin_cases a <;> rfl

theorem t_lt (t : Fin cfg0.N) : t.val < 32 :=
  lt_of_lt_of_eq t.isLt (show cfg0.N = 32 from N_0)

/-- The printed index maps, decided over the grid: every window's block index at point `t` is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

variable (V : (c : Dev nD) → (b : Ref sig .tc) → Buf (Elt Ideal) ((c : Thread nD τ).loc b))

/-- The query block at point `t` is rows `2t, 2t + 1` of the query array. -/
theorem iblk_q (c : Dev nD) (t : Fin cfg0.N) (p : Fin 2) (d : Fin 1024) :
    (iblk0 V c 0 t : Vec Ideal S2x1x1024 .f32) (ix3 p (0 : Fin 1) d)
      = (V c main_arg0 : S64x1x1024.Idx → EReal) (ix3 (⟨t.val * 2 + p.val, by have := t_lt t; have := p.isLt; omega⟩ : Fin 64) (0 : Fin 1) d) := by
  obtain ⟨h0, h1, h2, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 3) * 2 + 1 * p.val = t.val * 2 + p.val; rw [h0]; omega
  | ⟨1, _⟩ => show win0_0.index t (1 : Fin 3) * 1 + 1 * 0 = 0; rw [h1]
  | ⟨2, _⟩ => show win0_0.index t (2 : Fin 3) * 1024 + 1 * d.val = d.val; rw [h2]; omega

/-- The context block at point `t` is entries `2t, 2t + 1` of the context array. -/
theorem iblk_c (c : Dev nD) (t : Fin cfg0.N) (p : Fin 2) (n : Fin 2048) (d : Fin 1024) :
    (iblk0 V c 1 t : Vec Ideal S2x2048x1024 .f32) (ix3 p n d)
      = (V c main_arg1 : S64x2048x1024.Idx → EReal) (ix3 (⟨t.val * 2 + p.val, by have := t_lt t; have := p.isLt; omega⟩ : Fin 64) n d) := by
  obtain ⟨-, -, -, h0, h1, h2, -⟩ := idx_facts t
  unfold iblk0
  rw [View.read_apply]
  show V c main_arg1 _ = V c main_arg1 _
  refine congrArg (V c main_arg1) (funext fun a => Fin.ext ?_)
  match a with
  | ⟨0, _⟩ => show win0_1.index t (0 : Fin 3) * 2 + 1 * p.val = t.val * 2 + p.val; rw [h0]; omega
  | ⟨1, _⟩ => show win0_1.index t (1 : Fin 3) * 2048 + 1 * n.val = n.val; rw [h1]; omega
  | ⟨2, _⟩ => show win0_1.index t (2 : Fin 3) * 1024 + 1 * d.val = d.val; rw [h2]; omega

/-! ## The weights -/

/-- WHAT POINT `t` WRITES BACK to the weights is block `t` of `attnArr` of the two argument arrays. -/
theorem flushed_attn (c : Dev nD) (t : Fin cfg0.N) :
    (dat0 V c).flushed 2 t = ((cfg0.win 2).blk t).view.read (Elt Ideal)
      (attnArr (B := 64) (V c main_arg0) (V c main_arg1)) := by
  show (cfg0.win 2).cut (grid0.coords t) ((dat0 V c).after 2 t) = _
  rw [after0_2]
  unfold out0_2
  rw [View.canon_unit_zero hz3]
  simp only [View.ld_unit_zero (S := S2x1x1024) hz3, View.ld_unit_zero (S := S2x2048x1024) hz3]
  rw [AttnBlock.pay3_eq]
  obtain ⟨-, -, -, -, -, -, h0, h1, h2, -⟩ := idx_facts t
  funext j
  rw [View.read_apply]
  have hj0 : (j 0).val < 2 := (j 0).isLt
  have hj2 : (j 2).val < 2048 := (j 2).isLt
  have hemb : ((cfg0.win 2).blk t).view.emb j
      = ix3 (⟨t.val * 2 + (j 0).val, by have := t_lt t; omega⟩ : Fin 64) (0 : Fin 1) (⟨(j 2).val, hj2⟩ : Fin 2048) := by
    funext a; apply Fin.ext
    match a with
    | ⟨0, _⟩ => show win0_2.index t (0 : Fin 3) * 2 + 1 * (j 0).val = t.val * 2 + (j 0).val; rw [h0]; omega
    | ⟨1, _⟩ => show win0_2.index t (1 : Fin 3) * 1 + 1 * (j 1).val = 0; rw [h1]; have : (j 1).val < 1 := (j 1).isLt; omega
    | ⟨2, _⟩ => show win0_2.index t (2 : Fin 3) * 2048 + 1 * (j 2).val = (j 2).val; rw [h2]; omega
  rw [hemb, attnArr_ix3]
  exact rows_of_block attnRow (V c main_arg0) (V c main_arg1) (iblk0 V c 0 t) (iblk0 V c 1 t) t.val (t_lt t)
    (iblk_q V c t) (iblk_c V c t) (⟨(j 0).val, hj0⟩ : Fin 2) _ rfl (⟨(j 2).val, hj2⟩ : Fin 2048)

/-- An index of the weights is in point `t`'s block iff each coordinate is in the block's range on its axis. -/
theorem mem_blk_attn (t : Fin cfg0.N) (i : S64x1x2048.Idx) :
    i ∈ ((cfg0.win 2).blk t).view.set ↔ ∀ a : Fin 3, win0_2.index t a * S2x1x2048.size a ≤ (i a).val ∧ (i a).val < win0_2.index t a * S2x1x2048.size a + S2x1x2048.size a := by
  show i ∈ ((View.whole main_v0_0).slice (win0_2.rect t)).set ↔ _
  rw [View.set_slice_whole, Rect.mem_set_unit]
  exact Iff.rfl

/-- Every index of the weights is in the block of the point that holds its batch entry. -/
theorem cover_attn (i : S64x1x2048.Idx) :
    ∃ t : Fin cfg0.N, (cfg0.win 2).flush t = true ∧ i ∈ ((cfg0.win 2).blk t).view.set := by
  have hi0 : (i 0).val < 64 := (i 0).isLt
  have hi1 : (i 1).val < 1 := (i 1).isLt
  have hi2 : (i 2).val < 2048 := (i 2).isLt
  have hN : cfg0.N = 32 := N_0
  obtain ⟨t, ht⟩ : ∃ t : Fin cfg0.N, t.val = (i 0).val / 2 := ⟨⟨(i 0).val / 2, by rw [hN]; omega⟩, rfl⟩
  obtain ⟨-, -, -, -, -, -, h0, h1, h2, -⟩ := idx_facts t
  refine ⟨t, flush0_2 t, ?_⟩
  rw [mem_blk_attn]
  intro a
  match a with
  | ⟨0, _⟩ => show win0_2.index t (0 : Fin 3) * 2 ≤ (i 0).val ∧ (i 0).val < win0_2.index t (0 : Fin 3) * 2 + 2; rw [h0, ht]; omega
  | ⟨1, _⟩ => show win0_2.index t (1 : Fin 3) * 1 ≤ (i 1).val ∧ (i 1).val < win0_2.index t (1 : Fin 3) * 1 + 1; rw [h1]; omega
  | ⟨2, _⟩ => show win0_2.index t (2 : Fin 3) * 2048 ≤ (i 2).val ∧ (i 2).val < win0_2.index t (2 : Fin 3) * 2048 + 2048; rw [h2]; omega

/-- THE WEIGHTS after the region: `attnArr` of the two argument arrays as the region finds them. -/
theorem final_attn (c : Dev nD) :
    (dat0 V c).arrAt 2 cfg0.N = attnArr (B := 64) (V c main_arg0) (V c main_arg1) :=
  (dat0 V c).arrAt_eq_of_cover 2 _ (fun t _ => flushed_attn V c t) cover_attn

/-! ## The joined rows -/

/-- WHAT POINT `t` WRITES BACK to the joined rows is block `t` of `combArr` of the two argument arrays. -/
theorem flushed_comb (c : Dev nD) (t : Fin cfg0.N) :
    (dat0 V c).flushed 3 t = ((cfg0.win 3).blk t).view.read (Elt Ideal)
      (combArr (B := 64) (V c main_arg0) (V c main_arg1)) := by
  show (cfg0.win 3).cut (grid0.coords t) ((dat0 V c).after 3 t) = _
  rw [after0_3]
  unfold out0_3
  rw [View.canon_unit_zero hz3]
  simp only [View.ld_unit_zero (S := S2x1x1024) hz3, View.ld_unit_zero (S := S2x2048x1024) hz3]
  rw [AttnBlock.pay4_eq]
  obtain ⟨-, -, -, -, -, -, -, -, -, h0, h1, h2⟩ := idx_facts t
  funext j
  rw [View.read_apply]
  have hj0 : (j 0).val < 2 := (j 0).isLt
  have hj2 : (j 2).val < 2048 := (j 2).isLt
  have hemb : ((cfg0.win 3).blk t).view.emb j
      = ix3 (⟨t.val * 2 + (j 0).val, by have := t_lt t; omega⟩ : Fin 64) (0 : Fin 1) (⟨(j 2).val, hj2⟩ : Fin 2048) := by
    funext a; apply Fin.ext
    match a with
    | ⟨0, _⟩ => show win0_3.index t (0 : Fin 3) * 2 + 1 * (j 0).val = t.val * 2 + (j 0).val; rw [h0]; omega
    | ⟨1, _⟩ => show win0_3.index t (1 : Fin 3) * 1 + 1 * (j 1).val = 0; rw [h1]; have : (j 1).val < 1 := (j 1).isLt; omega
    | ⟨2, _⟩ => show win0_3.index t (2 : Fin 3) * 2048 + 1 * (j 2).val = (j 2).val; rw [h2]; omega
  rw [hemb, combArr_ix3]
  exact rows_of_block combRow (V c main_arg0) (V c main_arg1) (iblk0 V c 0 t) (iblk0 V c 1 t) t.val (t_lt t)
    (iblk_q V c t) (iblk_c V c t) (⟨(j 0).val, hj0⟩ : Fin 2) _ rfl (⟨(j 2).val, hj2⟩ : Fin 2048)

theorem mem_blk_comb (t : Fin cfg0.N) (i : S64x1x2048.Idx) :
    i ∈ ((cfg0.win 3).blk t).view.set ↔ ∀ a : Fin 3, win0_3.index t a * S2x1x2048.size a ≤ (i a).val ∧ (i a).val < win0_3.index t a * S2x1x2048.size a + S2x1x2048.size a := by
  show i ∈ ((View.whole main_v0_1).slice (win0_3.rect t)).set ↔ _
  rw [View.set_slice_whole, Rect.mem_set_unit]
  exact Iff.rfl

theorem cover_comb (i : S64x1x2048.Idx) :
    ∃ t : Fin cfg0.N, (cfg0.win 3).flush t = true ∧ i ∈ ((cfg0.win 3).blk t).view.set := by
  have hi0 : (i 0).val < 64 := (i 0).isLt
  have hi1 : (i 1).val < 1 := (i 1).isLt
  have hi2 : (i 2).val < 2048 := (i 2).isLt
  have hN : cfg0.N = 32 := N_0
  obtain ⟨t, ht⟩ : ∃ t : Fin cfg0.N, t.val = (i 0).val / 2 := ⟨⟨(i 0).val / 2, by rw [hN]; omega⟩, rfl⟩
  obtain ⟨-, -, -, -, -, -, -, -, -, h0, h1, h2⟩ := idx_facts t
  refine ⟨t, flush0_3 t, ?_⟩
  rw [mem_blk_comb]
  intro a
  match a with
  | ⟨0, _⟩ => show win0_3.index t (0 : Fin 3) * 2 ≤ (i 0).val ∧ (i 0).val < win0_3.index t (0 : Fin 3) * 2 + 2; rw [h0, ht]; omega
  | ⟨1, _⟩ => show win0_3.index t (1 : Fin 3) * 1 ≤ (i 1).val ∧ (i 1).val < win0_3.index t (1 : Fin 3) * 1 + 1; rw [h1]; omega
  | ⟨2, _⟩ => show win0_3.index t (2 : Fin 3) * 2048 ≤ (i 2).val ∧ (i 2).val < win0_3.index t (2 : Fin 3) * 2048 + 2048; rw [h2]; omega

/-- THE JOINED ROWS after the region: `combArr` of the two argument arrays as the region finds them. -/
theorem final_comb (c : Dev nD) :
    (dat0 V c).arrAt 3 cfg0.N = combArr (B := 64) (V c main_arg0) (V c main_arg1) :=
  (dat0 V c).arrAt_eq_of_cover 3 _ (fun t _ => flushed_comb V c t) cover_comb

end Cert.KernelIdeal.Region0

end
-- ==== Proof.Pay1.lean ====
/-
  The second kernel's stored value at an index: row `b` of the combined matrix against row `d` of the weights (a matrix
  product into a zero accumulator is the plain sum over the contracted axis), plus entry `d` of the bias (one row
  broadcast down the sixty-four), under `tanh`.
-/
import proofs.«409571_j987842478321_3_alg».proof.Proof.Gen.KernelIdeal.Skeleton
import proofs.«409571_j987842478321_3_alg».proof.Proof.Spec
import Idealize.ShloMosaic.Lib.Pipeline.Value
import Idealize.ShloMosaic.Lib.ValueLayout
import Idealize.ShloMosaic.PureOps.Ideal.Laws

noncomputable section

namespace Cert.KernelIdeal.Lin

open Cert.KernelIdeal Cert.KernelIdeal.Gen Idealize.ShloMosaic Idealize.ShloMosaic.ValueIdx Cert.Attn

/-! ## The matrix product's operand indices, axis by axis -/

theorem lhs_0 (i : S64x1024.Idx) (q : dot_S64x2048_S1024x2048_S64x1024_1_1_0_0_n_n.contr.Idx) :
    (dot_S64x2048_S1024x2048_S64x1024_1_1_0_0_n_n.lhsIdx i q 0).val = (i 0).val := by
  unfold DotDims.lhsIdx
  rw [dif_neg (show ¬(0 : Fin S64x2048.rank) ∈ dot_S64x2048_S1024x2048_S64x1024_1_1_0_0_n_n.lhsBatch by decide), dif_pos (show (0 : Fin S64x2048.rank) ∈ dot_S64x2048_S1024x2048_S64x1024_1_1_0_0_n_n.lhsNonContracting by decide)]
  rfl
theorem lhs_1 (i : S64x1024.Idx) (q : dot_S64x2048_S1024x2048_S64x1024_1_1_0_0_n_n.contr.Idx) :
    (dot_S64x2048_S1024x2048_S64x1024_1_1_0_0_n_n.lhsIdx i q 1).val = (q ⟨0, by decide⟩).val :=
  dot_S64x2048_S1024x2048_S64x1024_1_1_0_0_n_n.lhsIdx_val_of_single rfl i q
theorem rhs_0 (i : S64x1024.Idx) (q : dot_S64x2048_S1024x2048_S64x1024_1_1_0_0_n_n.contr.Idx) :
    (dot_S64x2048_S1024x2048_S64x1024_1_1_0_0_n_n.rhsIdx i q 0).val = (i 1).val := by
  unfold DotDims.rhsIdx
  rw [dif_neg (show ¬(0 : Fin S1024x2048.rank) ∈ dot_S64x2048_S1024x2048_S64x1024_1_1_0_0_n_n.rhsBatch by decide), dif_pos (show (0 : Fin S1024x2048.rank) ∈ dot_S64x2048_S1024x2048_S64x1024_1_1_0_0_n_n.rhsNonContracting by decide)]
  rfl
theorem rhs_1 (i : S64x1024.Idx) (q : dot_S64x2048_S1024x2048_S64x1024_1_1_0_0_n_n.contr.Idx) :
    (dot_S64x2048_S1024x2048_S64x1024_1_1_0_0_n_n.rhsIdx i q 1).val = (q ⟨0, by decide⟩).val :=
  dot_S64x2048_S1024x2048_S64x1024_1_1_0_0_n_n.rhsIdx_val_of_single rfl i q

/-- The matrix product into the zero accumulator at `(b, d)`: the sum over `e` of the left operand at `(b, e)` times the right
    at `(d, e)`. -/
theorem matmul_at (l : FVec Ideal S64x2048 .f32) (r : FVec Ideal S1024x2048 .f32) (b : Fin 64) (d : Fin 1024) :
    matmul dot_S64x2048_S1024x2048_S64x1024_1_1_0_0_n_n (some .fp32) l r (constant (F := Ideal) S64x1024 .f32 0x00000000#32) (ix2 b d)
      = ∑ e : Fin 2048, l (ix2 b e) * r (ix2 d e) := by
  simp only [matmul]
  rw [Ideal.matmul_constant_zero_apply, ← Equiv.sum_comp (ValueIdx.contrEquiv1 dot_S64x2048_S1024x2048_S64x1024_1_1_0_0_n_n 2048 rfl rfl).symm]
  refine Finset.sum_congr rfl fun k _ => ?_
  have hk := ValueIdx.contrEquiv1_symm_val dot_S64x2048_S1024x2048_S64x1024_1_1_0_0_n_n 2048 rfl rfl k
  have el : dot_S64x2048_S1024x2048_S64x1024_1_1_0_0_n_n.lhsIdx (ix2 b d) ((ValueIdx.contrEquiv1 dot_S64x2048_S1024x2048_S64x1024_1_1_0_0_n_n 2048 rfl rfl).symm k) = ix2 b k := funext fun a => Fin.ext (by
    match a with
    | ⟨0, _⟩ => exact lhs_0 _ _
    | ⟨1, _⟩ => exact (lhs_1 _ _).trans hk)
  have er : dot_S64x2048_S1024x2048_S64x1024_1_1_0_0_n_n.rhsIdx (ix2 b d) ((ValueIdx.contrEquiv1 dot_S64x2048_S1024x2048_S64x1024_1_1_0_0_n_n 2048 rfl rfl).symm k) = ix2 d k := funext fun a => Fin.ext (by
    match a with
    | ⟨0, _⟩ => exact rhs_0 _ _
    | ⟨1, _⟩ => exact (rhs_1 _ _).trans hk)
  rw [el, er]

/-- The bias as one row, broadcast down the rows, at `(b, d)` is entry `d`. -/
theorem bias_at (v : FVec Ideal S1024 .f32) (b : Fin 64) (d : Fin 1024) :
    broadcastTo S64x1024 (shapeCast S1x1024 v shapeCasts_S1024_S1x1024) broadcasts_S1x1024_S64x1024 (ix2 b d) = v (ix1 d) := by
  rw [broadcastTo_1b_ab_apply]
  exact shapeCast_a_1a_apply v shapeCasts_S1024_S1x1024 (0 : Fin 1) d

/-- The stored value at `(b, d)`. -/
theorem pay1_at (c2 : Vec Ideal S64x2048 .f32) (w : Vec Ideal S1024x2048 .f32) (v : Vec Ideal S1024 .f32) (b : Fin 64) (d : Fin 1024) :
    k1_pay1 (F := Ideal) c2 w v (ix2 b d) = Ideal.tanh ((∑ e : Fin 2048, c2 (ix2 b e) * w (ix2 d e)) + v (ix1 d)) := by
  unfold k1_pay1
  show Ideal.tanh (matmul dot_S64x2048_S1024x2048_S64x1024_1_1_0_0_n_n (some .fp32) (shapeCast S64x2048 c2 shapeCasts_S64x2048_S64x2048) w (constant (F := Ideal) S64x1024 .f32 0x00000000#32) (ix2 b d)
    + broadcastTo S64x1024 (shapeCast S1x1024 v shapeCasts_S1024_S1x1024) broadcasts_S1x1024_S64x1024 (ix2 b d)) = _
  rw [shapeCast_self, matmul_at, bias_at]

/-- The second kernel's result as one function of its three operand arrays: at `(b, d)`, `tanh` of row `b` of the first
    against row `d` of the second, plus entry `d` of the third. -/
def linArr (c2 : (⟨2, ![64, 2048]⟩ : Shape).Idx → EReal) (w : (⟨2, ![1024, 2048]⟩ : Shape).Idx → EReal)
    (v : (⟨1, ![1024]⟩ : Shape).Idx → EReal) : (⟨2, ![64, 1024]⟩ : Shape).Idx → EReal :=
  fun i => Ideal.tanh ((∑ e : Fin 2048, c2 (ix2 (⟨(i 0).val, (i 0).isLt⟩ : Fin 64) e) * w (ix2 (⟨(i 1).val, (i 1).isLt⟩ : Fin 1024) e))
    + v (ix1 (⟨(i 1).val, (i 1).isLt⟩ : Fin 1024)))

theorem linArr_ix2 (c2 : (⟨2, ![64, 2048]⟩ : Shape).Idx → EReal) (w : (⟨2, ![1024, 2048]⟩ : Shape).Idx → EReal)
    (v : (⟨1, ![1024]⟩ : Shape).Idx → EReal) (b : Fin 64) (d : Fin 1024) :
    linArr c2 w v (ix2 b d) = Ideal.tanh ((∑ e : Fin 2048, c2 (ix2 b e) * w (ix2 d e)) + v (ix1 d)) := rfl

/-- THE STORE of the second kernel is that function of its three loaded blocks. -/
theorem pay1_eq (c2 : Vec Ideal S64x2048 .f32) (w : Vec Ideal S1024x2048 .f32) (v : Vec Ideal S1024 .f32) :
    k1_pay1 (F := Ideal) c2 w v = linArr c2 w v := by
  funext i
  obtain ⟨b, d, rfl⟩ : ∃ (b : Fin 64) (d : Fin 1024), i = ix2 b d := ⟨i 0, i 1, eq_ix2 i⟩
  rw [linArr_ix2]; exact pay1_at c2 w v b d

end Cert.KernelIdeal.Lin

end
-- ==== Proof.Region1.lean ====
/-
  The second kernel's result array.  Its grid has one point and every window's block is its whole array, so the three
  input blocks are the three operand arrays as the region finds them, and the one block written back is the whole result:
  the array ends holding `linArr` of the three operands.
-/
import proofs.«409571_j987842478321_3_alg».proof.Proof.Gen.KernelIdeal.Frame
import proofs.«409571_j987842478321_3_alg».proof.Proof.Pay1
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Cert.Attn Cert.KernelIdeal.Lin
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- The printed index maps at the one point: every window's block index is zero on every axis. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0 :=
  (by decide +kernel : ∀ t : Fin grid1.N, _)

variable (V : (c : Dev nD) → (b : Ref sig .tc) → Buf (Elt Ideal) ((c : Thread nD τ).loc b))

/-- The first input block is the joined rows as a matrix, whole. -/
theorem iblk_comb (c : Dev nD) (t : Fin cfg1.N) :
    (iblk1 V c 0 t : Vec Ideal S64x2048 .f32) = (V c main_v1 : S64x2048.Idx → EReal) := by
  obtain ⟨h0, h1, -⟩ := idx_facts t
  unfold iblk1
  funext j
  rw [View.read_apply]
  show V c main_v1 _ = V c main_v1 _
  refine congrArg (V c main_v1) (funext fun a => Fin.ext ?_)
  match a with
  | ⟨0, _⟩ => show win1_0.index t (0 : Fin 2) * 64 + 1 * (j 0).val = (j 0).val; rw [h0]; omega
  | ⟨1, _⟩ => show win1_0.index t (1 : Fin 2) * 2048 + 1 * (j 1).val = (j 1).val; rw [h1]; omega

/-- The second input block is the weight matrix, whole. -/
theorem iblk_w (c : Dev nD) (t : Fin cfg1.N) :
    (iblk1 V c 1 t : Vec Ideal S1024x2048 .f32) = (V c main_arg2 : S1024x2048.Idx → EReal) := by
  obtain ⟨-, -, h0, h1, -⟩ := idx_facts t
  unfold iblk1
  funext j
  rw [View.read_apply]
  show V c main_arg2 _ = V c main_arg2 _
  refine congrArg (V c main_arg2) (funext fun a => Fin.ext ?_)
  match a with
  | ⟨0, _⟩ => show win1_1.index t (0 : Fin 2) * 1024 + 1 * (j 0).val = (j 0).val; rw [h0]; omega
  | ⟨1, _⟩ => show win1_1.index t (1 : Fin 2) * 2048 + 1 * (j 1).val = (j 1).val; rw [h1]; omega

/-- The third input block is the bias, whole. -/
theorem iblk_b (c : Dev nD) (t : Fin cfg1.N) :
    (iblk1 V c 2 t : Vec Ideal S1024 .f32) = (V c main_arg3 : S1024.Idx → EReal) := by
  obtain ⟨-, -, -, -, h0, -⟩ := idx_facts t
  unfold iblk1
  funext j
  rw [View.read_apply]
  show V c main_arg3 _ = V c main_arg3 _
  refine congrArg (V c main_arg3) (funext fun a => Fin.ext ?_)
  match a with
  | ⟨0, _⟩ => show win1_2.index t (0 : Fin 1) * 1024 + 1 * (j 0).val = (j 0).val; rw [h0]; omega

/-- WHAT THE POINT WRITES BACK is the whole of `linArr` of the three operand arrays. -/
theorem flushed_out (c : Dev nD) (t : Fin cfg1.N) :
    (dat1 V c).flushed 3 t = ((cfg1.win 3).blk t).view.read (Elt Ideal)
      (linArr (V c main_v1) (V c main_arg2) (V c main_arg3)) := by
  show (cfg1.win 3).cut (grid1.coords t) ((dat1 V c).after 3 t) = _
  rw [after1_3]
  unfold out1_3
  rw [View.canon_unit_zero hz2]
  simp only [View.ld_unit_zero (S := S64x2048) hz2, View.ld_unit_zero (S := S1024x2048) hz2, View.ld_unit_zero (S := S1024) hz1]
  rw [pay1_eq, iblk_comb V c t, iblk_w V c t, iblk_b V c t]
  obtain ⟨-, -, -, -, -, h0, h1⟩ := idx_facts t
  funext j
  rw [View.read_apply]
  show linArr (V c main_v1) (V c main_arg2) (V c main_arg3) _ = linArr (V c main_v1) (V c main_arg2) (V c main_arg3) _
  refine congrArg (linArr (V c main_v1) (V c main_arg2) (V c main_arg3)) (funext fun a => Fin.ext ?_)
  match a with
  | ⟨0, _⟩ => show (j 0).val = win1_3.index t (0 : Fin 2) * 64 + 1 * (j 0).val; rw [h0]; omega
  | ⟨1, _⟩ => show (j 1).val = win1_3.index t (1 : Fin 2) * 1024 + 1 * (j 1).val; rw [h1]; omega

theorem mem_blk_out (t : Fin cfg1.N) (i : S64x1024.Idx) :
    i ∈ ((cfg1.win 3).blk t).view.set ↔ ∀ a : Fin 2, win1_3.index t a * S64x1024.size a ≤ (i a).val ∧ (i a).val < win1_3.index t a * S64x1024.size a + S64x1024.size a := by
  show i ∈ ((View.whole main_v2).slice (win1_3.rect t)).set ↔ _
  rw [View.set_slice_whole, Rect.mem_set_unit]
  exact Iff.rfl

/-- The one block is the whole array. -/
theorem cover_out (i : S64x1024.Idx) :
    ∃ t : Fin cfg1.N, (cfg1.win 3).flush t = true ∧ i ∈ ((cfg1.win 3).blk t).view.set := by
  have hi0 : (i 0).val < 64 := (i 0).isLt
  have hi1 : (i 1).val < 1024 := (i 1).isLt
  obtain ⟨-, -, -, -, -, h0, h1⟩ := idx_facts t1_0
  refine ⟨t1_0, flush1_3 t1_0, ?_⟩
  rw [mem_blk_out]
  intro a
  match a with
  | ⟨0, _⟩ => show win1_3.index t1_0 (0 : Fin 2) * 64 ≤ (i 0).val ∧ (i 0).val < win1_3.index t1_0 (0 : Fin 2) * 64 + 64; rw [h0]; omega
  | ⟨1, _⟩ => show win1_3.index t1_0 (1 : Fin 2) * 1024 ≤ (i 1).val ∧ (i 1).val < win1_3.index t1_0 (1 : Fin 2) * 1024 + 1024; rw [h1]; omega

/-- THE RESULT after the region: `linArr` of the three operand arrays as the region finds them. -/
theorem final_out (c : Dev nD) :
    (dat1 V c).arrAt 3 cfg1.N = linArr (V c main_v1) (V c main_arg2) (V c main_arg3) :=
  (dat1 V c).arrAt_eq_of_cover 3 _ (fun t _ => flushed_out V c t) cover_out

end Cert.KernelIdeal.Region1

end
-- ==== Proof.KernelValue.lean ====
/-
  The kernel program's two results as functions of its four arguments.  Between the launch and the return the buffers
  pass through four boundaries: the first kernel leaves the weights and the joined rows (`Region0`), a reshape reads the
  joined rows `[64, 1, 2048]` as a matrix `[64, 2048]`, the second kernel leaves `tanh` of that matrix against the weight
  matrix plus the bias (`Region1`), and a broadcast reads that `[64, 1024]` result as `[64, 1, 1024]`.  Nothing after the
  first kernel writes the weights.  So the first result is `outArr` of the four arguments and the second `attnArr` of the
  first two.
-/
import proofs.«409571_j987842478321_3_alg».proof.Proof.KernelRun
import proofs.«409571_j987842478321_3_alg».proof.Proof.Region0
import proofs.«409571_j987842478321_3_alg».proof.Proof.Region1
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Attn Cert.KernelIdeal.Lin Idealize.ShloMosaic.StableHlo

variable (m : (ℓ : Loc nD τ sig) → Buf (Elt Ideal) ℓ) (ρ : Dev nD → PrngReg)

/-! ## After the first kernel -/

/-- The weights after the first kernel. -/
theorem W1_attn (c : Dev nD) :
    W1 m ρ c (Proc.devRef .tc main_v0_0)
      = attnArr (B := 64) (m ((c : Thread nD τ).loc main_arg0)) (m ((c : Thread nD τ).loc main_arg1)) :=
  (W1_arr m ρ c 2).trans (Region0.final_attn (V0 m ρ) c)

/-- The joined rows after the first kernel. -/
theorem W1_comb (c : Dev nD) :
    W1 m ρ c (Proc.devRef .tc main_v0_1)
      = combArr (B := 64) (m ((c : Thread nD τ).loc main_arg0)) (m ((c : Thread nD τ).loc main_arg1)) :=
  (W1_arr m ρ c 3).trans (Region0.final_comb (V0 m ρ) c)

/-! ## After the reshape -/

/-- The joined rows as a matrix. -/
theorem W2_v1 (c : Dev nD) :
    W2 m ρ c (Proc.devRef .tc main_v1)
      = shapeCast S64x2048 (W1 m ρ c (Proc.devRef .tc main_v0_1)) shapeCasts_S64x1x2048_S64x2048 := by
  show StableHlo.after hostOps1 (W1 m ρ c) (Proc.devRef .tc main_v1) = _
  after_results
  rfl

theorem W2_arg2 (c : Dev nD) : W2 m ρ c (Proc.devRef .tc main_arg2) = m ((c : Thread nD τ).loc main_arg2) := by
  show StableHlo.after hostOps1 (W1 m ρ c) (Proc.devRef .tc main_arg2) = _
  after_results
  exact W1_of_ne m ρ c main_arg2 (by decide)

theorem W2_arg3 (c : Dev nD) : W2 m ρ c (Proc.devRef .tc main_arg3) = m ((c : Thread nD τ).loc main_arg3) := by
  show StableHlo.after hostOps1 (W1 m ρ c) (Proc.devRef .tc main_arg3) = _
  after_results
  exact W1_of_ne m ρ c main_arg3 (by decide)

theorem W2_attn (c : Dev nD) : W2 m ρ c (Proc.devRef .tc main_v0_0) = W1 m ρ c (Proc.devRef .tc main_v0_0) := by
  show StableHlo.after hostOps1 (W1 m ρ c) (Proc.devRef .tc main_v0_0) = _
  after_results

/-- The matrix of joined rows at `(b, e)` is entry `e` of batch entry `b`'s joined row. -/
theorem W2_v1_at (c : Dev nD) (b : Fin 64) (e : Fin 2048) :
    (W2 m ρ c (Proc.devRef .tc main_v1) : S64x2048.Idx → EReal) (ix2 b e)
      = combRow (qRow (B := 64) (m ((c : Thread nD τ).loc main_arg0)) b) (cRow (B := 64) (m ((c : Thread nD τ).loc main_arg1)) b) e := by
  rw [W2_v1, W1_comb]
  refine (shapeCast_apply _ shapeCasts_S64x1x2048_S64x2048 (ix2 b e) (ix3 b (0 : Fin 1) e) ?_).trans (combArr_ix3 _ _ b 0 e)
  rw [Shape.rowMajor_val_two, Shape.rowMajor_val_three]
  show (b.val * 1 + 0) * 2048 + e.val = b.val * 2048 + e.val
  omega

/-! ## After the second kernel -/

/-- The second kernel's result. -/
theorem W3_v2 (c : Dev nD) :
    W3 m ρ c (Proc.devRef .tc main_v2)
      = linArr (W2 m ρ c (Proc.devRef .tc main_v1)) (W2 m ρ c (Proc.devRef .tc main_arg2)) (W2 m ρ c (Proc.devRef .tc main_arg3)) :=
  (W3_arr m ρ c 3).trans (Region1.final_out (V2 m ρ) c)

theorem W3_attn (c : Dev nD) : W3 m ρ c (Proc.devRef .tc main_v0_0) = W2 m ρ c (Proc.devRef .tc main_v0_0) :=
  W3_of_ne m ρ c main_v0_0 (by decide)

/-- A row of a matrix that is a joined row, against a row of the weights, plus the bias, under `tanh`, is the output row. -/
theorem outRow_of (c2 : (⟨2, ![64, 2048]⟩ : Shape).Idx → EReal) (w : (⟨2, ![1024, 2048]⟩ : Shape).Idx → EReal)
    (v : (⟨1, ![1024]⟩ : Shape).Idx → EReal) (qr : Fin 1024 → EReal) (cr : Fin 2048 → Fin 1024 → EReal) (b : Fin 64) (d : Fin 1024)
    (h : ∀ e : Fin 2048, c2 (ix2 b e) = combRow qr cr e) :
    Ideal.tanh ((∑ e : Fin 2048, c2 (ix2 b e) * w (ix2 d e)) + v (ix1 d)) = outRow qr cr (wMat w) (bVec v) d := by
  unfold outRow
  have hs : (∑ e : Fin 2048, c2 (ix2 b e) * w (ix2 d e)) = ∑ e : Fin 2048, combRow qr cr e * wMat w d e :=
    Finset.sum_congr rfl fun e _ => by rw [h]; rfl
  rw [hs]
  rfl

/-- The second kernel's result at `(b, d)` is entry `d` of batch entry `b`'s output row. -/
theorem W3_v2_at (c : Dev nD) (b : Fin 64) (d : Fin 1024) :
    (W3 m ρ c (Proc.devRef .tc main_v2) : S64x1024.Idx → EReal) (ix2 b d)
      = outRow (qRow (B := 64) (m ((c : Thread nD τ).loc main_arg0)) b) (cRow (B := 64) (m ((c : Thread nD τ).loc main_arg1)) b)
          (wMat (m ((c : Thread nD τ).loc main_arg2))) (bVec (m ((c : Thread nD τ).loc main_arg3))) d := by
  rw [W3_v2, linArr_ix2, W2_arg2, W2_arg3]
  exact outRow_of _ _ _ _ _ b d (fun e => W2_v1_at m ρ c b e)

/-! ## After the broadcast: the results -/

/-- THE FIRST RESULT: the output rows. -/
theorem W4_out (c : Dev nD) :
    W4 m ρ c (Proc.devRef .tc main_v3)
      = outArr (m ((c : Thread nD τ).loc main_arg0)) (m ((c : Thread nD τ).loc main_arg1))
          (m ((c : Thread nD τ).loc main_arg2)) (m ((c : Thread nD τ).loc main_arg3)) := by
  have h : W4 m ρ c (Proc.devRef .tc main_v3)
      = broadcastInDim S64x1x1024 ![0, 2] bcast_S64x1024_S64x1x1024_0_2 (W3 m ρ c (Proc.devRef .tc main_v2)) := by
    show StableHlo.after hostOps2 (W3 m ρ c) (Proc.devRef .tc main_v3) = _
    after_results
  rw [h]
  funext i
  obtain ⟨b, z, d, rfl⟩ : ∃ (b : Fin 64) (z : Fin 1) (d : Fin 1024), i = ix3 b z d := ⟨i 0, i 1, i 2, eq_ix3 i⟩
  obtain rfl := fin1_eq_zero z
  rw [outArr_ix3]
  refine (broadcastInDim_apply _ bcast_S64x1024_S64x1x1024_0_2 _ (ix3 b (0 : Fin 1) d) (ix2 b d) fun a => ?_).trans (W3_v2_at m ρ c b d)
  match a with
  | ⟨0, _⟩ => show b.val = if (64 : Nat) = 1 then 0 else b.val; rw [if_neg (by decide)]
  | ⟨1, _⟩ => show d.val = if (1024 : Nat) = 1 then 0 else d.val; rw [if_neg (by decide)]

/-- THE SECOND RESULT: the attention weights, untouched since the first kernel. -/
theorem W4_attn (c : Dev nD) :
    W4 m ρ c (Proc.devRef .tc main_v0_0)
      = attnArr (B := 64) (m ((c : Thread nD τ).loc main_arg0)) (m ((c : Thread nD τ).loc main_arg1)) := by
  have h : W4 m ρ c (Proc.devRef .tc main_v0_0) = W3 m ρ c (Proc.devRef .tc main_v0_0) := by
    show StableHlo.after hostOps2 (W3 m ρ c) (Proc.devRef .tc main_v0_0) = _
    after_results
  rw [h, W3_attn, W2_attn, W1_attn]

/-! ## The run -/

/-- Every weakly fair execution of the kernel program terminates with its two results at `outArr` and `attnArr` of the
    arguments, the arguments unchanged. -/
theorem run : θ_run defs (onTc (τ := τ) (main (F := Ideal))) ⟨m, fun _ => 0, ρ⟩ (fun r => ∀ c : Dev nD,
      r.2.mem ((c.tc : Thread nD τ).loc main_v3)
        = outArr (m ((c : Thread nD τ).loc main_arg0)) (m ((c : Thread nD τ).loc main_arg1))
            (m ((c : Thread nD τ).loc main_arg2)) (m ((c : Thread nD τ).loc main_arg3))
      ∧ r.2.mem ((c.tc : Thread nD τ).loc main_v0_0)
        = attnArr (B := 64) (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (W4_out m ρ c), (h c).2.1.trans (W4_attn m ρ c), (h c).2.2⟩)
    (run_results m ρ)

end Cert.KernelIdeal.Whole

end
-- ==== Proof.lean ====
/-
  Single-step attention followed by a linear layer, against its jnp reference, over the extended reals.

  Both programs compute, for each of the 64 batch entries, the scores of the 2048 context rows against the query row,
  their softmax with the row maximum subtracted, the context rows mixed by those weights, the mixed row joined with the
  query row, and `tanh` of the joined row against the weight matrix plus the bias; they return the output rows and the
  weights.  The kernel program does this in two kernels (the first over 32 grid points of two batch entries each, the
  second in one point); the reference in contractions, reductions and broadcasts on whole arrays.  Read at an index both
  are the same sums, folds and quotients (`Spec.lean`): the only differences are the order of the two factors in a score
  and how the arrays are laid out, so no law beyond commutativity of the product is used and the inputs' finiteness is
  never needed.  The idealization rewrote nothing, so the ledger is empty.
-/
import proofs.«409571_j987842478321_3_alg».proof.Defs
import proofs.«409571_j987842478321_3_alg».proof.Proof.Gen.Kernel
import proofs.«409571_j987842478321_3_alg».proof.Proof.Gen.Kernel.Frame
import proofs.«409571_j987842478321_3_alg».proof.Proof.Gen.KernelIdeal
import proofs.«409571_j987842478321_3_alg».proof.Proof.Gen.KernelIdeal.Frame
import proofs.«409571_j987842478321_3_alg».proof.Proof.Gen.ReferenceIdeal
import proofs.«409571_j987842478321_3_alg».proof.Proof.Gen.ReferenceIdeal.Run
import proofs.«409571_j987842478321_3_alg».proof.Proof.Gen.ReferenceIdeal.Read
import proofs.«409571_j987842478321_3_alg».proof.Proof.Gen.Pre_finite_inputs
import proofs.«409571_j987842478321_3_alg».proof.Proof.RefSpec
import proofs.«409571_j987842478321_3_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the output rows and the attention weights of `Spec.lean`, as functions of arguments that
    agree. -/
theorem algebraic : Cert.algebraic_KernelIdeal_ReferenceIdeal := by
  intro m ρ m' ρ' _ hagree
  refine ⟨fun c => Cert.Attn.outArr (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      fun c => Cert.Attn.attnArr (B := 64) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      Cert.KernelIdeal.Whole.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v18_eq, Cert.ReferenceIdeal.RefSpec.out_arr,
      (hagree c).1, (hagree c).2.1, (hagree c).2.2.1, (hagree c).2.2.2]
  · rw [(h c).2.1, Cert.ReferenceIdeal.Read.val_main_v11_eq, Cert.ReferenceIdeal.RefSpec.attn_arr,
      (hagree c).1, (hagree c).2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
